-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x256 : Shape := ⟨3, ![8, 1024, 256]⟩
abbrev S8192x256 : Shape := ⟨2, ![8192, 256]⟩
abbrev S_ : Shape := ⟨0, ![]⟩

class Facts : Prop where
  bcast_S_S8x1024x256 : S_.BroadcastsInDim S8x1024x256 (![] : Fin 0 → Fin S8x1024x256.rank)
  reducesTo_S8x1024x256_S_d0_1_2 : S8x1024x256.ReducesTo [0, 1, 2] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S8x1024x256 .f32) (main_arg1 : FVec F S8192x256 .f32) : IVec S_ 1 :=
  let main_v0 : FVec F S8x1024x256 .f32 := Host.absf main_arg0
  let main_cst : FVec F S_ .f32 := constant S_ .f32 0x7F800000#32
  let main_v1 : FVec F S8x1024x256 .f32 := broadcastInDim S8x1024x256 ![] bcast_S_S8x1024x256 main_cst
  let main_v2 : IVec S8x1024x256 1 := cmpf .olt main_v0 main_v1
  let main_c : IVec S_ 1 := constantI S_ 1 1#1
  let main_v3 : IVec S_ 1 := (fun x v => Host.reduce IntOp.andi x v reducesTo_S8x1024x256_S_d0_1_2 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8x1024x256 : Shape := ⟨3, ![8, 1024, 256]⟩
abbrev S8192x256 : Shape := ⟨2, ![8192, 256]⟩
abbrev S8192 : Shape := ⟨1, ![8192]⟩
abbrev S8192x1 : Shape := ⟨2, ![8192, 1]⟩
abbrev S8192x8192 : Shape := ⟨2, ![8192, 8192]⟩
abbrev S512x256 : Shape := ⟨2, ![512, 256]⟩
abbrev S512x8192 : Shape := ⟨2, ![512, 8192]⟩
abbrev S512 : Shape := ⟨1, ![512]⟩
abbrev S512x1 : Shape := ⟨2, ![512, 1]⟩
abbrev S8x1024x8192 : Shape := ⟨3, ![8, 1024, 8192]⟩

abbrev nBuf : Space → Nat
  | .hbm => 6
  | .vmem => 7
  | .smem => 0
  | _ => 0

abbrev bufTy : (tb : Table) → Fin (tcTables nBuf tb) → BufTy
  | .hbm, ⟨0, _⟩ => ⟨S8x1024x256, .f32⟩
  | .hbm, ⟨1, _⟩ => ⟨S8192x256, .f32⟩
  | .hbm, ⟨2, _⟩ => ⟨S8192x256, .f32⟩
  | .hbm, ⟨3, _⟩ => ⟨S8192x256, .bf16⟩
  | .hbm, ⟨4, _⟩ => ⟨S8192x8192, .f32⟩
  | .hbm, ⟨5, _⟩ => ⟨S8x1024x8192, .f32⟩
  | .local _ .vmem, ⟨0, _⟩ => ⟨S8192x256, .f32⟩
  | .local _ .vmem, ⟨1, _⟩ => ⟨S8192x256, .bf16⟩
  | .local _ .vmem, ⟨2, _⟩ => ⟨S512x256, .f32⟩
  | .local _ .vmem, ⟨3, _⟩ => ⟨S512x256, .f32⟩
  | .local _ .vmem, ⟨4, _⟩ => ⟨S8192x256, .bf16⟩
  | .local _ .vmem, ⟨5, _⟩ => ⟨S512x8192, .f32⟩
  | .local _ .vmem, ⟨6, _⟩ => ⟨S512x8192, .f32⟩
  | _, _ => ⟨S8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6

abbrev nD : Nat := 1
abbrev τ : Topo := Topo.v7x

variable {F : FTy → Type} [FloatOps F]

abbrev grid0 : Pipeline.Grid := .none

abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S8x1024x256_S8192x256 : S8x1024x256.ShapeCasts S8192x256
  inb_S8192x256_S8192x256_0_0 : ∀ a, (![0, 0] : Fin 2 → Nat) a + S8192x256.size a ≤ S8192x256.size a
  h_S8192x256 : 0 < S8192x256.numel
  reduces_S8192x256_S8192 : S8192x256.Reduces [1] S8192
  shapeCasts_S8192_S8192x1 : S8192.ShapeCasts S8192x1
  broadcasts_S8192x1_S8192x256 : S8192x1.Broadcasts S8192x256
  bitsLt_bf16_f32 : FTy.bits .bf16 < FTy.bits .f32
  packedbf16_S8192x256_S8192x256_0_0 : (Rect.unit (s := S8192x256) ![0, 0] S8192x256.size inb_S8192x256_S8192x256_0_0).PackedRows (EltTy.packing .bf16)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S512 : S512x256.Reduces [1] S512
  shapeCasts_S512_S512x1 : S512.ShapeCasts S512x1
  broadcasts_S512x1_S512x256 : S512x1.Broadcasts S512x256
  shapeCasts_S8192x256_S8192x256 : S8192x256.ShapeCasts S8192x256
  inb_S512x8192_S512x8192_0_0 : ∀ a, (![0, 0] : Fin 2 → Nat) a + S512x8192.size a ≤ S512x8192.size a
  h_S512x8192 : 0 < S512x8192.numel
  shapeCasts_S8192x8192_S8x1024x8192 : S8192x8192.ShapeCasts S8x1024x8192
  dot_S512x256_S8192x256_S512x8192_1_1_0_0_n_n_wf : DotDims.WF S512x256 S8192x256 S512x8192 [1] [1] [0] [0] [] []
  hstage0_0 : ∀ j, (stage0_0 j).IsWhole
  hstage0_1 : ∀ j, (stage0_1 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S8192x256.size a
  hwx1_0 : ∀ i : grid1.Coords, EltTy.bits .f32 = 32 ∨ (Rect.block (s := S8192x256) S512x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x8192.size a ≤ S8192x8192.size a
  hwx1_2 : ∀ i : grid1.Coords, EltTy.bits .f32 = 32 ∨ (Rect.block (s := S8192x8192) S512x8192.size (cc1_transform_2 i) (hinb1_2 i)).WholeWords (EltTy.packing .f32)

variable [Facts₀]

def dot_S512x256_S8192x256_S512x8192_1_1_0_0_n_n : DotDims S512x256 S8192x256 S512x8192 where
  lhsContracting := [1]
  rhsContracting := [1]
  lhsNonContracting := [0]
  rhsNonContracting := [0]
  lhsBatch := []
  rhsBatch := []
  wf := dot_S512x256_S8192x256_S512x8192_1_1_0_0_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x8192.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x1024x256 : Shape := ⟨3, ![8, 1024, 256]⟩
abbrev S8192x256 : Shape := ⟨2, ![8192, 256]⟩
abbrev S_ : Shape := ⟨0, ![]⟩
abbrev S8x1024 : Shape := ⟨2, ![8, 1024]⟩
abbrev S8x1024x1 : Shape := ⟨3, ![8, 1024, 1]⟩
abbrev S8192 : Shape := ⟨1, ![8192]⟩
abbrev S8192x1 : Shape := ⟨2, ![8192, 1]⟩
abbrev S8x1024x8192 : Shape := ⟨3, ![8, 1024, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8x1024x256, .f32⟩
  | .hbm, ⟨1, _⟩ => ⟨S8192x256, .f32⟩
  | .hbm, ⟨2, _⟩ => ⟨S8x1024x256, .f32⟩
  | .hbm, ⟨3, _⟩ => ⟨S_, .f32⟩
  | .hbm, ⟨4, _⟩ => ⟨S8x1024, .f32⟩
  | .hbm, ⟨5, _⟩ => ⟨S8x1024x1, .f32⟩
  | .hbm, ⟨6, _⟩ => ⟨S8x1024x1, .f32⟩
  | .hbm, ⟨7, _⟩ => ⟨S_, .f32⟩
  | .hbm, ⟨8, _⟩ => ⟨S8x1024x1, .f32⟩
  | .hbm, ⟨9, _⟩ => ⟨S8x1024x1, .f32⟩
  | .hbm, ⟨10, _⟩ => ⟨S8x1024x256, .f32⟩
  | .hbm, ⟨11, _⟩ => ⟨S8x1024x256, .f32⟩
  | .hbm, ⟨12, _⟩ => ⟨S8192x256, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x256, .f32⟩
  | .hbm, ⟨21, _⟩ => ⟨S8192x256, .f32⟩
  | .hbm, ⟨22, _⟩ => ⟨S8x1024x8192, .f32⟩
  | _, _ => ⟨S8x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]

class Facts₀ : Prop where
  reducesTo_S8x1024x256_S8x1024_d2 : S8x1024x256.ReducesTo [2] S8x1024
  h_S_ : 0 < S_.numel
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  bcast_S8x1024x1_S8x1024x256_0_1_2 : S8x1024x1.BroadcastsInDim S8x1024x256 (![0, 1, 2] : Fin 3 → Fin S8x1024x256.rank)
  reducesTo_S8192x256_S8192_d1 : S8192x256.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  dot_S8x1024x256_S8192x256_S8x1024x8192_2_1_01_0_n_n_wf : DotDims.WF S8x1024x256 S8192x256 S8x1024x8192 [2] [1] [0, 1] [0] [] []

variable [Facts₀]

def dot_S8x1024x256_S8192x256_S8x1024x8192_2_1_01_0_n_n : DotDims S8x1024x256 S8192x256 S8x1024x8192 where
  lhsContracting := [2]
  rhsContracting := [1]
  lhsNonContracting := [0, 1]
  rhsNonContracting := [0]
  lhsBatch := []
  rhsBatch := []
  wf := dot_S8x1024x256_S8192x256_S8x1024x8192_2_1_01_0_n_n_wf

class Facts : Prop extends Facts₀ where

variable [Facts]
-- ==== Proof.CosineSpec.lean ====
/-
  The function both programs compute, over the extended reals.

  A row `x : Fin 256 → EReal` is divided by its Euclidean length plus ε, where ε is the value of the one float literal
  both programs carry (the word 0x322BCC77, about 1e-8): `unit x d = x d / (√(∑ k, x k · x k) + ε)`.  The logit of query
  row `(b, l)` against codebook row `k` is the inner product of the two rows so normalised,
  `∑ d, unit z[b,l,·] d · unit s[k,·] d`.

  The kernel works on the queries flattened to 8192 rows and keeps the normalised codebook as an array of its own, so
  its natural form is two-dimensional (`logits2` over `normRows`); `logits2_flat` says that the two-dimensional form
  at row `b · 1024 + l` is the three-dimensional one at `(b, l)`: the same sum, the query row named differently.
-/
import Idealize.ShloMosaic.PureOps.Ideal
import Idealize.ShloMosaic.PureOps.Ideal.Laws
import Idealize.ShloMosaic.Lib.ValueIdx

noncomputable section

open scoped BigOperators

namespace Cert.Cosine

open Idealize.ShloMosaic Idealize.ShloMosaic.ValueIdx

/-- The queries `z : [8, 1024, 256]`, the codebook `s : [8192, 256]` (also the shape of the flattened queries), the
    flat logits `[8192, 8192]` and the logits `[8, 1024, 8192]`. -/
abbrev SQ : Shape := ⟨3, ![8, 1024, 256]⟩
abbrev SR : Shape := ⟨2, ![8192, 256]⟩
abbrev SF : Shape := ⟨2, ![8192, 8192]⟩
abbrev SL : Shape := ⟨3, ![8, 1024, 8192]⟩

/-- ε: the value of the shared literal. -/
def eps : EReal := Ideal.ofBits .f32 0x322BCC77#32

/-- A row divided by its length plus ε, at channel `d`. -/
def unit (x : Fin 256 → EReal) (d : Fin 256) : EReal :=
  Ideal.div (x d) (Ideal.sqrt (∑ k : Fin 256, x k * x k) + eps)

/-- Every row of a `[8192, 256]` array normalised. -/
def normRows (s : SR.Idx → EReal) : SR.Idx → EReal := fun j =>
  unit (fun k => s (ix2 (n0 := 8192) (n1 := 256) ⟨(j 0).val, (j 0).isLt⟩ k)) ⟨(j 1).val, (j 1).isLt⟩

/-- The flat logits: row `r` of `z2` normalised, against row `c` of an ALREADY normalised codebook `sn`. -/
def logits2 (z2 sn : SR.Idx → EReal) : SF.Idx → EReal := fun j =>
  ∑ d : Fin 256, unit (fun k => z2 (ix2 (n0 := 8192) (n1 := 256) ⟨(j 0).val, (j 0).isLt⟩ k)) d
    * sn (ix2 (n0 := 8192) (n1 := 256) ⟨(j 1).val, (j 1).isLt⟩ d)

/-- The logits: query row `(b, l)` normalised against codebook row `k` normalised. -/
def logits (z : SQ.Idx → EReal) (s : SR.Idx → EReal) : SL.Idx → EReal := fun i =>
  ∑ d : Fin 256,
    unit (fun k => z (ix3 (n0 := 8) (n1 := 1024) (n2 := 256) ⟨(i 0).val, (i 0).isLt⟩ ⟨(i 1).val, (i 1).isLt⟩ k)) d
    * unit (fun k => s (ix2 (n0 := 8192) (n1 := 256) ⟨(i 2).val, (i 2).isLt⟩ k)) d

/-- The flat form at row `b · 1024 + l`, column `k`, of queries `z2` that are `z` flattened (`hz`: row `b · 1024 + l` of
    `z2` is row `(b, l)` of `z`) is the logit at `(b, l, k)`. -/
theorem logits2_flat (z : SQ.Idx → EReal) (s z2 : SR.Idx → EReal) (i : SL.Idx) (j : SF.Idx)
    (hr : (j 0).val = (i 0).val * 1024 + (i 1).val) (hc : (j 1).val = (i 2).val)
    (hz : ∀ k : Fin 256, z2 (ix2 (n0 := 8192) (n1 := 256) ⟨(j 0).val, (j 0).isLt⟩ k)
      = z (ix3 (n0 := 8) (n1 := 1024) (n2 := 256) ⟨(i 0).val, (i 0).isLt⟩ ⟨(i 1).val, (i 1).isLt⟩ k)) :
    logits2 z2 (normRows s) j = logits z s i := by
  unfold logits2 logits
  refine Finset.sum_congr rfl fun d _ => ?_
  have e1 : (fun k => z2 (ix2 (n0 := 8192) (n1 := 256) ⟨(j 0).val, (j 0).isLt⟩ k))
      = fun k => z (ix3 (n0 := 8) (n1 := 1024) (n2 := 256) ⟨(i 0).val, (i 0).isLt⟩ ⟨(i 1).val, (i 1).isLt⟩ k) :=
    funext hz
  have e2 : (⟨(j 1).val, (j 1).isLt⟩ : Fin 8192) = ⟨(i 2).val, (i 2).isLt⟩ := Fin.ext hc
  rw [e1]
  unfold normRows
  show _ * unit (fun k => s (ix2 (n0 := 8192) (n1 := 256) ⟨(j 1).val, (j 1).isLt⟩ k)) d = _
  rw [e2]

end Cert.Cosine

end
-- ==== Proof.LibKeepdims.lean ====
/-
  The column forms of a row reduction kept as a unit axis (`jnp.sum(x, axis=-1, keepdims=True)` inside a kernel), read
  at an index written with `ValueIdx.ix1` / `ix2`, for any extents `a`, `b`:

  • `shapeCast_a_a1_apply`: an `[a]` vector cast to the column `[a, 1]` reads, at `(p, u)`, the vector at `p`;
  • `broadcastTo_a1_ab_apply`: a column `[a, 1]` broadcast along the rows to `[a, b]` reads, at `(p, q)`, the column at
    `(p, 0)`;
  • `multiReduction_add_rows`: at the ideal values the lane sum of an `[a, b]` vector over its second axis, read at `p`,
    is `∑ k : Fin b, v (p, k)` (the accumulator is the neutral zero, which the sum drops).

  Together: a kernel's `x / (√(∑ x², keepdims) + ε)` at `(p, q)` mentions row `p` of `x` only.
-/
import Idealize.ShloMosaic.Lib.Pipeline.Value
import Idealize.ShloMosaic.Lib.ValueIdx
import Idealize.ShloMosaic.PureOps.Ideal.Laws

open scoped BigOperators

namespace Idealize.ShloMosaic.ValueIdx

open Idealize.ShloMosaic

variable {α : Type}

/-- An `[a]` vector cast to the column `[a, 1]` reads, at `(p, u)`, the vector at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along the rows to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- At the ideal values the lane sum of an `[a, b]` vector over its second axis, read at row `p`, is the sum of the row. -/
theorem multiReduction_add_rows {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx
-- ==== Proof.RowNorm.lean ====
/-
  One element of a row-normalised block, as both kernels compute it.

  For an `[a, 256]` block `x`, the kernel squares it, sums each row over the lanes, keeps the sums as a column, takes
  the square root, adds ε, broadcasts the column back along the rows and divides.  At `(p, q)` every step but the lane
  sum reads one element, and the lane sum reads row `p`: the result is `Cosine.unit` of row `p` at `q`.
-/
import proofs.«138946_g72834055405689_cont_9to1c4b_399_4_alg».proof.Proof.CosineSpec
import proofs.«138946_g72834055405689_cont_9to1c4b_399_4_alg».proof.Proof.LibKeepdims

noncomputable section

open scoped BigOperators

namespace Cert.Cosine

open Idealize.ShloMosaic Idealize.ShloMosaic.ValueIdx

/-- `x / (√(∑ x², kept as a column) + ε)` at `(p, q)` is row `p` of `x` normalised, at `q`. -/
theorem rowNorm_apply {a : ℕ} (x : FVec Ideal ⟨2, ![a, 256]⟩ .f32)
    (hr : (⟨2, ![a, 256]⟩ : Shape).Reduces [1] ⟨1, ![a]⟩) (hφ : FKind.Formats .f32)
    (hacc : (0x00000000#32 : BitVec (FTy.bits .f32)) = FKind.add.neutral .f32 hφ)
    (hc : (⟨1, ![a]⟩ : Shape).ShapeCasts ⟨2, ![a, 1]⟩) (hb : (⟨2, ![a, 1]⟩ : Shape).Broadcasts ⟨2, ![a, 256]⟩)
    (p : Fin a) (q : Fin 256) :
    divf x (broadcastTo ⟨2, ![a, 256]⟩
        (addf (sqrt (shapeCast ⟨2, ![a, 1]⟩ (multiReduction .add [1] ⟨1, ![a]⟩ (mulf x x) 0x00000000#32 hr hφ hacc) hc))
          (broadcast ⟨2, ![a, 1]⟩ (Scalar.ofBits (F := Ideal) .f32 0x322BCC77#32))) hb) (ix2 p q)
      = unit (fun k => x (ix2 p k)) q := by
  show Ideal.div (x (ix2 p q)) (broadcastTo ⟨2, ![a, 256]⟩ _ hb (ix2 p q)) = _
  rw [broadcastTo_a1_ab_apply]
  show Ideal.div (x (ix2 p q)) (Ideal.sqrt (shapeCast ⟨2, ![a, 1]⟩ _ hc (ix2 p (0 : Fin 1))) + Ideal.ofBits .f32 0x322BCC77#32) = _
  rw [shapeCast_a_a1_apply, multiReduction_add_rows]
  rfl

end Cert.Cosine

end
-- ==== Proof.SlotsRegion.lean ====
/-
  The first kernel region: the codebook normalised row by row.

  The region has no grid: its one point stages the whole codebook array, and the body stores, over the whole output
  buffer, each element divided by its row's length plus ε (the change to bf16 is the identity on extended reals).  So
  after the region the output array is `Cosine.normRows` of the codebook as the region found it: the body's one store
  read as that function (`pay_eq`), the one block being the array (both windows' block index is zero on each axis, so an
  index inside the block is the same index of the array), and that block covering every index.
-/
import proofs.«138946_g72834055405689_cont_9to1c4b_399_4_alg».proof.Proof.Gen.KernelIdeal.Frame
import proofs.«138946_g72834055405689_cont_9to1c4b_399_4_alg».proof.Proof.RowNorm
import Idealize.ShloMosaic.Lib.Pipeline.Value

set_option maxRecDepth 16384

noncomputable section

open scoped BigOperators

namespace Cert.KernelIdeal.SlotsValue

open Cert.KernelIdeal Cert.KernelIdeal.Gen Idealize.ShloMosaic Idealize.ShloMosaic.TcCoe Idealize.SL.Sem
open Idealize.ShloMosaic.ValueIdx
open Idealize.ShloMosaic.Pipeline (Dat)
open Cert.Cosine

/-- The body's stored value, of the block it loaded, is that block with every row normalised. -/
theorem pay_eq (x : Vec Ideal S8192x256 .f32) : k0_pay1 (F := Ideal) x = normRows x := by
  funext j
  obtain ⟨p, q, rfl⟩ : ∃ (p : Fin 8192) (q : Fin 256), j = ix2 p q := ⟨j 0, j 1, eq_ix2 j⟩
  unfold k0_pay1
  exact rowNorm_apply (a := 8192) (x : FVec Ideal ⟨2, ![8192, 256]⟩ .f32) _ _ _ _ _ p q

variable (V : (c : Dev nD) → (b : Ref sig .tc) → Buf (Elt Ideal) ((c : Thread nD τ).loc b))

theorem hz : (![0, 0] : Fin 2 → Nat) = fun _ => 0 := funext fun a => by fin_cases a <;> rfl

/-- Both windows sit at block index zero on both axes, at the one point. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- What the one point writes back is the whole array `normRows` of the codebook, read through the (whole) block. -/
theorem flushed_eq (c : Dev nD) (t : Fin cfg0.N) :
    (dat0 V c).flushed 1 t = ((cfg0.win 1).blk t).view.read (Elt Ideal) (normRows (V c main_arg1)) := by
  show (cfg0.win 1).cut (grid0.coords t) ((dat0 V c).after 1 t) = _
  rw [after0_1]
  unfold out0_1
  rw [View.canon_unit_zero hz]
  simp only [View.ld_unit_zero (S := S8192x256) hz]
  rw [pay_eq]
  obtain ⟨e0, e1, e2, e3⟩ := idx_facts t
  have hin : (iblk0 V c 0 t : Vec Ideal S8192x256 .f32) = V c main_arg1 := funext fun y => by
    show V c main_arg1 (((cfg0.win 0).blk t).view.emb y) = V c main_arg1 y
    refine congrArg (V c main_arg1) (funext fun a => Fin.ext ?_)
    match a with
    | ⟨0, _⟩ => show win0_0.index t (0 : Fin 2) * 8192 + 1 * (y 0).val = (y 0).val; omega
    | ⟨1, _⟩ => show win0_0.index t (1 : Fin 2) * 256 + 1 * (y 1).val = (y 1).val; omega
  rw [hin]
  funext j
  show normRows (V c main_arg1) j = normRows (V c main_arg1) (((cfg0.win 1).blk t).view.emb j)
  refine congrArg (normRows (V c main_arg1)) (funext fun a => Fin.ext ?_)
  match a with
  | ⟨0, _⟩ => show (j 0).val = win0_1.index t (0 : Fin 2) * 8192 + 1 * (j 0).val; omega
  | ⟨1, _⟩ => show (j 1).val = win0_1.index t (1 : Fin 2) * 256 + 1 * (j 1).val; omega

/-- An index of the array is in the point's block iff each coordinate is in the block's range on its axis. -/
theorem mem_blk (t : Fin cfg0.N) (i : S8192x256.Idx) :
    i ∈ ((cfg0.win 1).blk t).view.set ↔ ∀ a : Fin 2, win0_1.index t a * S8192x256.size a ≤ (i a).val ∧ (i a).val < win0_1.index t a * S8192x256.size a + S8192x256.size a := by
  show i ∈ ((View.whole main_v1).slice (win0_1.rect t)).set ↔ _
  rw [View.set_slice_whole, Rect.mem_set_unit]
  exact Iff.rfl

/-- After the region the output array is the codebook, as the region found it, with every row normalised. -/
theorem final (c : Dev nD) : (dat0 V c).arrAt 1 cfg0.N = normRows (V c main_arg1) :=
  (dat0 V c).arrAt_eq_of_cover 1 _ (fun t _ => flushed_eq V c t) (fun i => by
    refine ⟨t0_0, flush0_1 t0_0, ?_⟩
    rw [mem_blk]
    obtain ⟨e0, e1, e2, e3⟩ := idx_facts t0_0
    intro a
    match a with
    | ⟨0, _⟩ =>
      show win0_1.index t0_0 (0 : Fin 2) * 8192 ≤ (i 0).val ∧ (i 0).val < win0_1.index t0_0 (0 : Fin 2) * 8192 + 8192
      have h0 : (i 0).val < 8192 := (i 0).isLt
      omega
    | ⟨1, _⟩ =>
      show win0_1.index t0_0 (1 : Fin 2) * 256 ≤ (i 1).val ∧ (i 1).val < win0_1.index t0_0 (1 : Fin 2) * 256 + 256
      have h1 : (i 1).val < 256 := (i 1).isLt
      omega)

end Cert.KernelIdeal.SlotsValue

end
-- ==== Proof.BlockLogits.lean ====
/-
  What one grid point of the second kernel computes, stated without the program.

  A point holds a block `x0 : [512, 256]` of query rows and the whole normalised codebook `x1 : [8192, 256]`.  Its
  result block `[512, 8192]` at `(p, q)` is the inner product of row `p` of `x0`, normalised, with row `q` of `x1`:
  `blockLogits`.  `blockLogits_eq`: if row `p` of the block is row `r` of an array `A` and row `q` of `x1` is row `c` of an
  array `B`, the block's entry is the flat logits of `A` and `B` at `(r, c)` — nothing else of the block is read.
-/
import proofs.«138946_g72834055405689_cont_9to1c4b_399_4_alg».proof.Proof.CosineSpec

noncomputable section

open scoped BigOperators

namespace Cert.Cosine

open Idealize.ShloMosaic Idealize.ShloMosaic.ValueIdx

/-- A block of 512 query rows, and the block of logits it yields. -/
abbrev SB : Shape := ⟨2, ![512, 256]⟩
abbrev SO : Shape := ⟨2, ![512, 8192]⟩

/-- Row `p` of the query block normalised, against row `q` of the normalised codebook. -/
def blockLogits (x0 : SB.Idx → EReal) (x1 : SR.Idx → EReal) : SO.Idx → EReal := fun j =>
  ∑ d : Fin 256, unit (fun k => x0 (ix2 (n0 := 512) (n1 := 256) ⟨(j 0).val, (j 0).isLt⟩ k)) d
    * x1 (ix2 (n0 := 8192) (n1 := 256) ⟨(j 1).val, (j 1).isLt⟩ d)

/-- A block's entry is the arrays' flat logit when the block's row and the codebook's row are the arrays' rows. -/
theorem blockLogits_eq (x0 : SB.Idx → EReal) (x1 A B : SR.Idx → EReal) (j : SO.Idx) (i : SF.Idx)
    (h0 : ∀ k : Fin 256, x0 (ix2 (n0 := 512) (n1 := 256) ⟨(j 0).val, (j 0).isLt⟩ k)
      = A (ix2 (n0 := 8192) (n1 := 256) ⟨(i 0).val, (i 0).isLt⟩ k))
    (h1 : ∀ d : Fin 256, x1 (ix2 (n0 := 8192) (n1 := 256) ⟨(j 1).val, (j 1).isLt⟩ d)
      = B (ix2 (n0 := 8192) (n1 := 256) ⟨(i 1).val, (i 1).isLt⟩ d)) :
    blockLogits x0 x1 j = logits2 A B i := by
  unfold blockLogits logits2
  refine Finset.sum_congr rfl fun d _ => ?_
  rw [h1 d, funext h0]

end Cert.Cosine

end
-- ==== Proof.CosineRegion.lean ====
/-
  The second kernel region: the flattened queries normalised block by block and multiplied into the normalised codebook.

  Grid point `t` (of 16) stages rows `512·t … 512·t + 511` of the flattened queries and the whole normalised codebook, and
  stores, over its whole `[512, 8192]` output block, the matrix product (into a zero accumulator, contracting the
  channel) of the query block, each row divided by its length plus ε, with the codebook: `Cosine.blockLogits`
  (`pay_eq`; the two shape casts in the body are to the same shape, and the change to bf16 is the identity on extended
  reals).  Entry `(p, q)` of that block reads row `p` of the query block, which is row `512·t + p` of the array, and row
  `q` of the codebook; the output block is rows `512·t …` of the output array.  Hence what point `t` writes back is
  block `t` of `Cosine.logits2` of the two arrays as the region found them (`flushed_eq`); row `r` of the output lies in
  the block of point `r / 512`, so the blocks cover the array, which therefore ends as `logits2` whole (`final`).
-/
import proofs.«138946_g72834055405689_cont_9to1c4b_399_4_alg».proof.Proof.Gen.KernelIdeal.Frame
import proofs.«138946_g72834055405689_cont_9to1c4b_399_4_alg».proof.Proof.RowNorm
import proofs.«138946_g72834055405689_cont_9to1c4b_399_4_alg».proof.Proof.BlockLogits
import Idealize.ShloMosaic.Lib.Pipeline.Value

set_option maxRecDepth 16384

noncomputable section

open scoped BigOperators

namespace Cert.KernelIdeal.CosineValue

open Cert.KernelIdeal Cert.KernelIdeal.Gen Idealize.ShloMosaic Idealize.ShloMosaic.TcCoe Idealize.SL.Sem
open Idealize.ShloMosaic.ValueIdx
open Idealize.ShloMosaic.Pipeline (Dat)
open Cert.Cosine

/-! ## The matrix product at an index -/

theorem lhs_dot_0 (i : S512x8192.Idx) (q : dot_S512x256_S8192x256_S512x8192_1_1_0_0_n_n.contr.Idx) :
    (dot_S512x256_S8192x256_S512x8192_1_1_0_0_n_n.lhsIdx i q 0).val = (i 0).val := by
  unfold DotDims.lhsIdx
  rw [dif_neg (show ¬(0 : Fin S512x256.rank) ∈ dot_S512x256_S8192x256_S512x8192_1_1_0_0_n_n.lhsBatch by decide), dif_pos (show (0 : Fin S512x256.rank) ∈ dot_S512x256_S8192x256_S512x8192_1_1_0_0_n_n.lhsNonContracting by decide)]
  rfl
theorem lhs_dot_1 (i : S512x8192.Idx) (q : dot_S512x256_S8192x256_S512x8192_1_1_0_0_n_n.contr.Idx) :
    (dot_S512x256_S8192x256_S512x8192_1_1_0_0_n_n.lhsIdx i q 1).val = (q ⟨0, by decide⟩).val :=
  dot_S512x256_S8192x256_S512x8192_1_1_0_0_n_n.lhsIdx_val_of_single rfl i q
theorem rhs_dot_0 (i : S512x8192.Idx) (q : dot_S512x256_S8192x256_S512x8192_1_1_0_0_n_n.contr.Idx) :
    (dot_S512x256_S8192x256_S512x8192_1_1_0_0_n_n.rhsIdx i q 0).val = (i 1).val := by
  unfold DotDims.rhsIdx
  rw [dif_neg (show ¬(0 : Fin S8192x256.rank) ∈ dot_S512x256_S8192x256_S512x8192_1_1_0_0_n_n.rhsBatch by decide), dif_pos (show (0 : Fin S8192x256.rank) ∈ dot_S512x256_S8192x256_S512x8192_1_1_0_0_n_n.rhsNonContracting by decide)]
  rfl
theorem rhs_dot_1 (i : S512x8192.Idx) (q : dot_S512x256_S8192x256_S512x8192_1_1_0_0_n_n.contr.Idx) :
    (dot_S512x256_S8192x256_S512x8192_1_1_0_0_n_n.rhsIdx i q 1).val = (q ⟨0, by decide⟩).val :=
  dot_S512x256_S8192x256_S512x8192_1_1_0_0_n_n.rhsIdx_val_of_single rfl i q

/-- The product of a `[512, 256]` and an `[8192, 256]` block over their second axes, into the zero splat, at `(p, q)`:
    the sum over the channel of row `p` of the first times row `q` of the second. -/
theorem matmul_block (l : FVec Ideal S512x256 .bf16) (r : FVec Ideal S8192x256 .bf16) (j : S512x8192.Idx) :
    matmul dot_S512x256_S8192x256_S512x8192_1_1_0_0_n_n none l r (constant (F := Ideal) S512x8192 .f32 0x00000000#32) j
      = ∑ k : Fin 256, l (ix2 (n0 := 512) (n1 := 256) ⟨(j 0).val, (j 0).isLt⟩ k)
          * r (ix2 (n0 := 8192) (n1 := 256) ⟨(j 1).val, (j 1).isLt⟩ k) := by
  simp only [matmul]
  rw [Ideal.matmul_constant_zero_apply, ← Equiv.sum_comp (ValueIdx.contrEquiv1 dot_S512x256_S8192x256_S512x8192_1_1_0_0_n_n 256 rfl rfl).symm]
  refine Finset.sum_congr rfl fun k _ => ?_
  have hk := ValueIdx.contrEquiv1_symm_val dot_S512x256_S8192x256_S512x8192_1_1_0_0_n_n 256 rfl rfl k
  have el : dot_S512x256_S8192x256_S512x8192_1_1_0_0_n_n.lhsIdx j ((ValueIdx.contrEquiv1 dot_S512x256_S8192x256_S512x8192_1_1_0_0_n_n 256 rfl rfl).symm k)
      = ix2 (n0 := 512) (n1 := 256) ⟨(j 0).val, (j 0).isLt⟩ k := funext fun a => Fin.ext (by
    match a with
    | ⟨0, _⟩ => exact lhs_dot_0 _ _
    | ⟨1, _⟩ => exact (lhs_dot_1 _ _).trans hk)
  have er : dot_S512x256_S8192x256_S512x8192_1_1_0_0_n_n.rhsIdx j ((ValueIdx.contrEquiv1 dot_S512x256_S8192x256_S512x8192_1_1_0_0_n_n 256 rfl rfl).symm k)
      = ix2 (n0 := 8192) (n1 := 256) ⟨(j 1).val, (j 1).isLt⟩ k := funext fun a => Fin.ext (by
    match a with
    | ⟨0, _⟩ => exact rhs_dot_0 _ _
    | ⟨1, _⟩ => exact (rhs_dot_1 _ _).trans hk)
  rw [el, er]

/-! ## The body's store -/

/-- The body's stored value, of the two blocks it loaded, is the block of logits of the first against the second. -/
theorem pay_eq (x0 : Vec Ideal S512x256 .f32) (x1 : Vec Ideal S8192x256 .bf16) :
    k1_pay1 (F := Ideal) x0 x1 = blockLogits x0 x1 := by
  funext j
  unfold k1_pay1
  simp only [shapeCast_self]
  refine (matmul_block _ _ j).trans ?_
  unfold blockLogits
  refine Finset.sum_congr rfl fun d _ => ?_
  refine congrArg (· * x1 (ix2 (n0 := 8192) (n1 := 256) ⟨(j 1).val, (j 1).isLt⟩ d)) ?_
  exact rowNorm_apply (a := 512) (x0 : FVec Ideal ⟨2, ![512, 256]⟩ .f32) _ _ _ _ _ ⟨(j 0).val, (j 0).isLt⟩ d

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the query window and the output window are at block row `t`, block column
    zero; the codebook window is at block zero on both axes; and there are sixteen points. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 16 :=
  (by decide +kernel : ∀ t : Fin grid1.N, _)

/-- What point `t` writes back is block `t` of the flat logits of the two arrays as the region found them. -/
theorem flushed_eq (c : Dev nD) (t : Fin cfg1.N) :
    (dat1 V c).flushed 2 t = ((cfg1.win 2).blk t).view.read (Elt Ideal) (logits2 (V c main_v0) (V c main_v1)) := by
  show (cfg1.win 2).cut (grid1.coords t) ((dat1 V c).after 2 t) = _
  rw [after1_2]
  unfold out1_2
  rw [View.canon_unit_zero hz]
  simp only [View.ld_unit_zero (S := S512x256) hz, View.ld_unit_zero (S := S8192x256) hz]
  rw [pay_eq]
  obtain ⟨e0, e1, e2, e3, e4, e5, ht⟩ := idx_facts t
  funext j
  show blockLogits (iblk1 V c 0 t) (iblk1 V c 1 t) j = logits2 (V c main_v0) (V c main_v1) (((cfg1.win 2).blk t).view.emb j)
  refine blockLogits_eq _ _ _ _ j _ (fun k => ?_) (fun d => ?_)
  · show V c main_v0 (((cfg1.win 0).blk t).view.emb (ix2 (n0 := 512) (n1 := 256) ⟨(j 0).val, (j 0).isLt⟩ k)) = _
    refine congrArg (V c main_v0) (funext fun a => Fin.ext ?_)
    match a with
    | ⟨0, _⟩ =>
      show win1_0.index t (0 : Fin 2) * 512 + 1 * (j 0).val = win1_2.index t (0 : Fin 2) * 512 + 1 * (j 0).val
      omega
    | ⟨1, _⟩ =>
      show win1_0.index t (1 : Fin 2) * 256 + 1 * k.val = k.val
      omega
  · show V c main_v1 (((cfg1.win 1).blk t).view.emb (ix2 (n0 := 8192) (n1 := 256) ⟨(j 1).val, (j 1).isLt⟩ d)) = _
    refine congrArg (V c main_v1) (funext fun a => Fin.ext ?_)
    match a with
    | ⟨0, _⟩ =>
      show win1_1.index t (0 : Fin 2) * 8192 + 1 * (j 1).val = win1_2.index t (1 : Fin 2) * 8192 + 1 * (j 1).val
      omega
    | ⟨1, _⟩ =>
      show win1_1.index t (1 : Fin 2) * 256 + 1 * d.val = d.val
      omega

/-- An index of the array is in point `t`'s block iff each coordinate is in the block's range on its axis. -/
theorem mem_blk (t : Fin cfg1.N) (i : S8192x8192.Idx) :
    i ∈ ((cfg1.win 2).blk t).view.set ↔ ∀ a : Fin 2, win1_2.index t a * S512x8192.size a ≤ (i a).val ∧ (i a).val < win1_2.index t a * S512x8192.size a + S512x8192.size a := by
  show i ∈ ((View.whole main_v2).slice (win1_2.rect t)).set ↔ _
  rw [View.set_slice_whole, Rect.mem_set_unit]
  exact Iff.rfl

/-- After the region the output array is the flat logits of the flattened queries and the normalised codebook as the
    region found them: row `r` is in the block of point `r / 512`. -/
theorem final (c : Dev nD) : (dat1 V c).arrAt 2 cfg1.N = logits2 (V c main_v0) (V c main_v1) :=
  (dat1 V c).arrAt_eq_of_cover 2 _ (fun t _ => flushed_eq V c t) (fun i => by
    have h0 : (i 0).val < 8192 := (i 0).isLt
    have h1 : (i 1).val < 8192 := (i 1).isLt
    have hN : cfg1.N = 16 := N_1
    let t : Fin cfg1.N := ⟨(i 0).val / 512, by rw [hN]; omega⟩
    refine ⟨t, flush1_2 t, ?_⟩
    rw [mem_blk]
    obtain ⟨e0, e1, e2, e3, e4, e5, ht⟩ := idx_facts t
    have hq : t.val = (i 0).val / 512 := rfl
    intro a
    match a with
    | ⟨0, _⟩ =>
      show win1_2.index t (0 : Fin 2) * 512 ≤ (i 0).val ∧ (i 0).val < win1_2.index t (0 : Fin 2) * 512 + 512
      omega
    | ⟨1, _⟩ =>
      show win1_2.index t (1 : Fin 2) * 8192 ≤ (i 1).val ∧ (i 1).val < win1_2.index t (1 : Fin 2) * 8192 + 8192
      omega)

end Cert.KernelIdeal.CosineValue

end
-- ==== Proof.KernelValue.lean ====
/-
  The kernel program's result, as one function of its two arguments.

  The run's last boundary holds, at the result array, the second reshape of what the second region left in the flat
  logits array; the second region left `Cosine.logits2` of the flattened queries and of the normalised codebook as it
  found them; the flattened queries are the first reshape of the query argument (the first region does not touch
  them), and the normalised codebook is what the first region left, `Cosine.normRows` of the codebook argument (the
  first reshape does not touch it).  A reshape keeps the row-major position: entry `(b, l, k)` of the result is entry
  `(b · 1024 + l, k)` of the flat logits, and row `b · 1024 + l` of the flattened queries is row `(b, l)` of the queries.
  So the result is `Cosine.logits` of the two arguments (`Cosine.logits2_flat`).
-/
import proofs.«138946_g72834055405689_cont_9to1c4b_399_4_alg».proof.Proof.Gen.KernelIdeal.Frame
import proofs.«138946_g72834055405689_cont_9to1c4b_399_4_alg».proof.Proof.SlotsRegion
import proofs.«138946_g72834055405689_cont_9to1c4b_399_4_alg».proof.Proof.CosineRegion
import Idealize.ShloMosaic.Lib.StableHlo.Run
import Idealize.ShloMosaic.Lib.Pipeline.Value

set_option maxRecDepth 16384

noncomputable section

open scoped BigOperators

namespace Cert.KernelIdeal.ResultValue

open Cert.KernelIdeal Cert.KernelIdeal.Gen Idealize.ShloMosaic Idealize.ShloMosaic.TcCoe Idealize.SL.Sem
open Idealize.ShloMosaic.StableHlo Idealize.ShloMosaic.ValueIdx
open Cert.Cosine

variable (m : (ℓ : Loc nD τ sig) → Buf (Elt Ideal) ℓ) (ρ : Dev nD → PrngReg)

/-- Entering the first region, the flattened queries are the first reshape of the query argument. -/
theorem queries_flat (c : Dev nD) :
    W1 m ρ c (Proc.devRef .tc main_v0)
      = shapeCast S8192x256 (m ((c : Thread nD τ).loc main_arg0)) shapeCasts_S8x1024x256_S8192x256 := by
  show StableHlo.after hostOps0 (W0 m ρ c) (Proc.devRef .tc main_v0) = _
  after_results
  rfl

/-- Entering the first region, the codebook is the codebook argument. -/
theorem slots_kept (c : Dev nD) :
    W1 m ρ c (Proc.devRef .tc main_arg1) = m ((c : Thread nD τ).loc main_arg1) := by
  show StableHlo.after hostOps0 (W0 m ρ c) (Proc.devRef .tc main_arg1) = _
  after_results

/-- The last boundary's result array is the second reshape of the flat logits array as the second region left it. -/
theorem result_cast (c : Dev nD) :
    W4 m ρ c (Proc.devRef .tc main_v3)
      = shapeCast S8x1024x8192 (W3 m ρ c (Proc.devRef .tc main_v2)) shapeCasts_S8192x8192_S8x1024x8192 := by
  show StableHlo.after hostOps2 (W3 m ρ c) (Proc.devRef .tc main_v3) = _
  after_results
  rfl

/-- The flat logits array after the second region. -/
theorem flat_eq (c : Dev nD) :
    W3 m ρ c (Proc.devRef .tc main_v2)
      = logits2 (shapeCast S8192x256 (m ((c : Thread nD τ).loc main_arg0)) shapeCasts_S8x1024x256_S8192x256)
          (normRows (m ((c : Thread nD τ).loc main_arg1))) := by
  have h3 : W3 m ρ c (Proc.devRef .tc main_v2) = logits2 (V2 m ρ c main_v0) (V2 m ρ c main_v1) :=
    (W3_arr m ρ c 2).trans (CosineValue.final (V2 m ρ) c)
  have hq : V2 m ρ c main_v0 = shapeCast S8192x256 (m ((c : Thread nD τ).loc main_arg0)) shapeCasts_S8x1024x256_S8192x256 :=
    (W2_of_ne m ρ c main_v0 (by decide)).trans (queries_flat m ρ c)
  have hs : V2 m ρ c main_v1 = normRows (m ((c : Thread nD τ).loc main_arg1)) :=
    ((W2_arr m ρ c 1).trans (SlotsValue.final (V1 m ρ) c)).trans (congrArg normRows (slots_kept m ρ c))
  rw [h3, hq, hs]

/-- The kernel program's result array at the end of the run is the logits of its two arguments. -/
theorem result_eq (c : Dev nD) :
    W4 m ρ c (Proc.devRef .tc main_v3)
      = logits (m ((c : Thread nD τ).loc main_arg0)) (m ((c : Thread nD τ).loc main_arg1)) := by
  rw [result_cast, flat_eq]
  funext i
  obtain ⟨b, l, k, rfl⟩ : ∃ (b : Fin 8) (l : Fin 1024) (k : Fin 8192), i = ix3 b l k := ⟨i 0, i 1, i 2, eq_ix3 i⟩
  have hb := b.isLt
  have hl := l.isLt
  refine (shapeCast_apply _ shapeCasts_S8192x8192_S8x1024x8192 (ix3 b l k)
    (ix2 (n0 := 8192) (n1 := 8192) ⟨b.val * 1024 + l.val, by omega⟩ k) ?_).trans ?_
  · rw [Shape.rowMajor_val_two, Shape.rowMajor_val_three]
    rfl
  · refine logits2_flat _ _ _ (ix3 b l k) _ rfl rfl (fun d => ?_)
    refine shapeCast_apply _ shapeCasts_S8x1024x256_S8192x256 _ _ ?_
    rw [Shape.rowMajor_val_two, Shape.rowMajor_val_three]
    rfl

end Cert.KernelIdeal.ResultValue

end
-- ==== Proof.RefValue.lean ====
/-
  The reference, read one operation at a time down to one element, is `Cosine.logits` of its two arguments.

  Its `dot_general` at `(b, l, k)` is the sum over the channel `d` of the normalised query at `(b, l, d)` times the
  normalised codebook at `(k, d)`; each normalised element is the element over the square root of its row's sum of
  squares (the host's sum starts from the literal zero, which adds nothing) plus ε, both norms broadcast back along
  the channel.  What is left after the operations are unfolded is index bookkeeping: the chain of broadcast and
  reduction indices under the square root names row `(b, l)` (respectively `k`) whatever channel it started from.
-/
import proofs.«138946_g72834055405689_cont_9to1c4b_399_4_alg».proof.Proof.Gen.ReferenceIdeal.Read
import proofs.«138946_g72834055405689_cont_9to1c4b_399_4_alg».proof.Proof.CosineSpec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Cosine

/-- The normalised query at `(b, l, d)`, as the reference computes it, is `unit` of row `(b, l)` at `d`. -/
theorem query_eq (x0 : FVec Ideal S8x1024x256 .f32) (i : S8x1024x8192.Idx) (d : Fin 256) :
    val_main_v4 (F := Ideal) x0 (lidx_main_v10 i d)
      = unit (fun k => x0 (ix3 (n0 := 8) (n1 := 1024) (n2 := 256) ⟨(i 0).val, (i 0).isLt⟩ ⟨(i 1).val, (i 1).isLt⟩ k)) d := by
  have hl : lidx_main_v10 i d = ix3 (n0 := 8) (n1 := 1024) (n2 := 256) ⟨(i 0).val, (i 0).isLt⟩ ⟨(i 1).val, (i 1).isLt⟩ d :=
    funext fun a => Fin.ext (by match a with | ⟨0, _⟩ => rfl | ⟨1, _⟩ => rfl | ⟨2, _⟩ => rfl)
  have hk : ∀ k : Fin 256, idx_main_call0_v1 (idx_main_call0_v2 (idx_main_v3 (lidx_main_v10 i d))) k
      = ix3 (n0 := 8) (n1 := 1024) (n2 := 256) ⟨(i 0).val, (i 0).isLt⟩ ⟨(i 1).val, (i 1).isLt⟩ k :=
    fun k => funext fun a => Fin.ext (by match a with | ⟨0, _⟩ => rfl | ⟨1, _⟩ => rfl | ⟨2, _⟩ => rfl)
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, hk, hl, Ideal.hostDivf_def, Ideal.addf_def, Ideal.hostUnary_sqrt_def,
    Ideal.ofBits_def, Ideal.mulf_def, Ideal.ofBits_zero_f32, zero_add]
  rfl

/-- The normalised codebook at `(k, d)`, as the reference computes it, is `unit` of row `k` at `d`. -/
theorem slot_eq (x1 : FVec Ideal S8192x256 .f32) (i : S8x1024x8192.Idx) (d : Fin 256) :
    val_main_v9 (F := Ideal) x1 (ridx_main_v10 i d)
      = unit (fun k => x1 (ix2 (n0 := 8192) (n1 := 256) ⟨(i 2).val, (i 2).isLt⟩ k)) d := by
  have hr : ridx_main_v10 i d = ix2 (n0 := 8192) (n1 := 256) ⟨(i 2).val, (i 2).isLt⟩ d :=
    funext fun a => Fin.ext (by match a with | ⟨0, _⟩ => rfl | ⟨1, _⟩ => rfl)
  have hk : ∀ k : Fin 256, idx_main_call1_v1 (idx_main_call1_v2 (idx_main_v8 (ridx_main_v10 i d))) k
      = ix2 (n0 := 8192) (n1 := 256) ⟨(i 2).val, (i 2).isLt⟩ k :=
    fun k => funext fun a => Fin.ext (by match a with | ⟨0, _⟩ => rfl | ⟨1, _⟩ => rfl)
  rw [val_main_v9_apply, val_main_v8_apply, val_main_v7_apply, val_main_v5_apply, val_main_call1_v2_apply,
    val_main_call1_v1_apply, val_main_v6_apply, val_main_cst_0_apply, val_main_call1_cst_apply]
  simp only [val_main_call1_v0_apply, hk, hr, Ideal.hostDivf_def, Ideal.addf_def, Ideal.hostUnary_sqrt_def,
    Ideal.ofBits_def, Ideal.mulf_def, Ideal.ofBits_zero_f32, zero_add]
  rfl

/-- The reference's result is the logits of its two arguments. -/
theorem result_eq (x0 : FVec Ideal S8x1024x256 .f32) (x1 : FVec Ideal S8192x256 .f32) :
    val_main_v10 (F := Ideal) x0 x1 = logits x0 x1 := by
  funext i
  rw [val_main_v10_apply]
  unfold logits
  exact Finset.sum_congr rfl fun d _ => by rw [query_eq, slot_eq]

end Cert.ReferenceIdeal.RefValue

end
-- ==== Proof.lean ====
/-
  Cosine-similarity logits of 8 × 1024 queries against an 8192-row codebook (channel width 256): a two-region kernel
  against jnp's `z / (‖z‖ + ε)`, `s / (‖s‖ + ε)`, `einsum('bld,kd->blk')`.

  Both programs compute, at `(b, l, k)`, `∑ d, (z[b,l,d] / (√(∑ z[b,l,·]²) + ε)) · (s[k,d] / (√(∑ s[k,·]²) + ε))` with the
  same literal ε (`Cosine.logits`, Proof/CosineSpec.lean).  The kernel flattens the queries to 8192 rows, normalises the
  codebook in a first region (Proof/SlotsRegion.lean), and in a second region of 16 grid points normalises 512 query rows
  at a time and multiplies them into the normalised codebook (Proof/CosineRegion.lean); a final reshape restores the
  leading axes (Proof/KernelValue.lean).  The reference is read operation by operation in Proof/RefValue.lean.  No
  algebraic law separates the two sides: the same operations are applied to the same rows, so the precondition (finite
  inputs) is never opened; the differences are the tiling, the row naming `b · 1024 + l` against `(b, l)`, a zero the
  host's sum starts from, the zero accumulator of the kernel's matrix product, and a change to bf16 that is the identity
  on extended reals.

  The three frames: the two kernel programs' runs terminate without fault with the arguments unchanged (the generated
  frames), and the reference's frame is its run with the result dropped.  The idealisation rewrote nothing, so
  `preserves` is `True`.
-/
import proofs.«138946_g72834055405689_cont_9to1c4b_399_4_alg».proof.Defs
import proofs.«138946_g72834055405689_cont_9to1c4b_399_4_alg».proof.Proof.Gen.Kernel
import proofs.«138946_g72834055405689_cont_9to1c4b_399_4_alg».proof.Proof.Gen.Kernel.Frame
import proofs.«138946_g72834055405689_cont_9to1c4b_399_4_alg».proof.Proof.Gen.KernelIdeal
import proofs.«138946_g72834055405689_cont_9to1c4b_399_4_alg».proof.Proof.Gen.KernelIdeal.Frame
import proofs.«138946_g72834055405689_cont_9to1c4b_399_4_alg».proof.Proof.Gen.ReferenceIdeal
import proofs.«138946_g72834055405689_cont_9to1c4b_399_4_alg».proof.Proof.Gen.ReferenceIdeal.Run
import proofs.«138946_g72834055405689_cont_9to1c4b_399_4_alg».proof.Proof.Gen.ReferenceIdeal.Read
import proofs.«138946_g72834055405689_cont_9to1c4b_399_4_alg».proof.Proof.Gen.Pre_finite_inputs
import proofs.«138946_g72834055405689_cont_9to1c4b_399_4_alg».proof.Proof.KernelRun
import proofs.«138946_g72834055405689_cont_9to1c4b_399_4_alg».proof.Proof.KernelValue
import proofs.«138946_g72834055405689_cont_9to1c4b_399_4_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the two arguments both programs end with the result array at `Cosine.logits` of them:
    the kernel program by its run and `ResultValue.result_eq`, the reference by its run and `RefValue.result_eq`. -/
theorem algebraic : Cert.algebraic_KernelIdeal_ReferenceIdeal := by
  intro m ρ m' ρ' _ hagree
  refine ⟨fun c => Cert.Cosine.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.ResultValue.result_eq m ρ c), (h c).2⟩)
      (Cert.KernelIdeal.ResultRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v10_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
